-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048x1x1 : Shape := ⟨4, ![8192, 2048, 1, 1]⟩
abbrev S1000x5x2048x1x1 : Shape := ⟨5, ![1000, 5, 2048, 1, 1]⟩
abbrev S_ : Shape := ⟨0, ![]⟩

class Facts : Prop where
  bcast_S_S8192x2048x1x1 : S_.BroadcastsInDim S8192x2048x1x1 (![] : Fin 0 → Fin S8192x2048x1x1.rank)
  reducesTo_S8192x2048x1x1_S_d0_1_2_3 : S8192x2048x1x1.ReducesTo [0, 1, 2, 3] S_
  h_S_ : 0 < S_.numel
  bcast_S_S1000x5x2048x1x1 : S_.BroadcastsInDim S1000x5x2048x1x1 (![] : Fin 0 → Fin S1000x5x2048x1x1.rank)
  reducesTo_S1000x5x2048x1x1_S_d0_1_2_3_4 : S1000x5x2048x1x1.ReducesTo [0, 1, 2, 3, 4] S_

variable [Facts]

def fn {F : FTy → Type} [FloatOps F] (main_arg0 : FVec F S8192x2048x1x1 .f32) (main_arg1 : FVec F S1000x5x2048x1x1 .f32) : IVec S_ 1 :=
  let main_v0 : FVec F S8192x2048x1x1 .f32 := Host.absf main_arg0
  let main_cst : FVec F S_ .f32 := constant S_ .f32 0x7F800000#32
  let main_v1 : FVec F S8192x2048x1x1 .f32 := broadcastInDim S8192x2048x1x1 ![] bcast_S_S8192x2048x1x1 main_cst
  let main_v2 : IVec S8192x2048x1x1 1 := cmpf .olt main_v0 main_v1
  let main_c : IVec S_ 1 := constantI S_ 1 1#1
  let main_v3 : IVec S_ 1 := (fun x v => Host.reduce IntOp.andi x v reducesTo_S8192x2048x1x1_S_d0_1_2_3 h_S_) main_v2 main_c
  let main_v4 : FVec F S1000x5x2048x1x1 .f32 := Host.absf main_arg1
  let main_cst_0 : FVec F S_ .f32 := constant S_ .f32 0x7F800000#32
  let main_v5 : FVec F S1000x5x2048x1x1 .f32 := broadcastInDim S1000x5x2048x1x1 ![] bcast_S_S1000x5x2048x1x1 main_cst_0
  let main_v6 : IVec S1000x5x2048x1x1 1 := cmpf .olt main_v4 main_v5
  let main_c_1 : IVec S_ 1 := constantI S_ 1 1#1
  let main_v7 : IVec S_ 1 := (fun x v => Host.reduce IntOp.andi x v reducesTo_S1000x5x2048x1x1_S_d0_1_2_3_4 h_S_) main_v6 main_c_1
  let main_v8 : IVec S_ 1 := andi main_v3 main_v7
  main_v8
-- ==== Kernel.lean ====
abbrev S8192x2048x1x1 : Shape := ⟨4, ![8192, 2048, 1, 1]⟩
abbrev S1000x5x2048x1x1 : Shape := ⟨5, ![1000, 5, 2048, 1, 1]⟩
abbrev S8192x2048 : Shape := ⟨2, ![8192, 2048]⟩
abbrev S1000x5x2048 : Shape := ⟨3, ![1000, 5, 2048]⟩
abbrev S_ : Shape := ⟨0, ![]⟩
abbrev S1000x2048 : Shape := ⟨2, ![1000, 2048]⟩
abbrev S2048x1000 : Shape := ⟨2, ![2048, 1000]⟩
abbrev S1000 : Shape := ⟨1, ![1000]⟩
abbrev S1000x1 : Shape := ⟨2, ![1000, 1]⟩
abbrev S1x1000 : Shape := ⟨2, ![1, 1000]⟩
abbrev S8192x1000 : Shape := ⟨2, ![8192, 1000]⟩
abbrev S1024x2048 : Shape := ⟨2, ![1024, 2048]⟩
abbrev S1024x1000 : Shape := ⟨2, ![1024, 1000]⟩
abbrev S1024 : Shape := ⟨1, ![1024]⟩
abbrev S1024x1 : Shape := ⟨2, ![1024, 1]⟩

abbrev nBuf : Space → Nat
  | .hbm => 17
  | .vmem => 6
  | .smem => 0
  | _ => 0

abbrev bufTy : (tb : Table) → Fin (tcTables nBuf tb) → BufTy
  | .hbm, ⟨0, _⟩ => ⟨S8192x2048x1x1, .f32⟩
  | .hbm, ⟨1, _⟩ => ⟨S1000x5x2048x1x1, .f32⟩
  | .hbm, ⟨2, _⟩ => ⟨S8192x2048, .f32⟩
  | .hbm, ⟨3, _⟩ => ⟨S1000x5x2048, .f32⟩
  | .hbm, ⟨4, _⟩ => ⟨S_, .f32⟩
  | .hbm, ⟨5, _⟩ => ⟨S1000x2048, .f32⟩
  | .hbm, ⟨6, _⟩ => ⟨S_, .f32⟩
  | .hbm, ⟨7, _⟩ => ⟨S1000x2048, .f32⟩
  | .hbm, ⟨8, _⟩ => ⟨S1000x2048, .f32⟩
  | .hbm, ⟨9, _⟩ => ⟨S2048x1000, .f32⟩
  | .hbm, ⟨10, _⟩ => ⟨S2048x1000, .bf16⟩
  | .hbm, ⟨11, _⟩ => ⟨S1000x2048, .f32⟩
  | .hbm, ⟨12, _⟩ => ⟨S_, .f32⟩
  | .hbm, ⟨13, _⟩ => ⟨S1000, .f32⟩
  | .hbm, ⟨14, _⟩ => ⟨S1000x1, .f32⟩
  | .hbm, ⟨15, _⟩ => ⟨S1x1000, .f32⟩
  | .hbm, ⟨16, _⟩ => ⟨S8192x1000, .f32⟩
  | .local _ .vmem, ⟨0, _⟩ => ⟨S1024x2048, .f32⟩
  | .local _ .vmem, ⟨1, _⟩ => ⟨S1024x2048, .f32⟩
  | .local _ .vmem, ⟨2, _⟩ => ⟨S2048x1000, .bf16⟩
  | .local _ .vmem, ⟨3, _⟩ => ⟨S1x1000, .f32⟩
  | .local _ .vmem, ⟨4, _⟩ => ⟨S1024x1000, .f32⟩
  | .local _ .vmem, ⟨5, _⟩ => ⟨S1024x1000, .f32⟩
  | _, _ => ⟨S8192x2048x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x2048x1x1_S8192x2048 : S8192x2048x1x1.ShapeCasts S8192x2048
  shapeCasts_S1000x5x2048x1x1_S1000x5x2048 : S1000x5x2048x1x1.ShapeCasts S1000x5x2048
  reducesTo_S1000x5x2048_S1000x2048_d1 : S1000x5x2048.ReducesTo [1] S1000x2048
  h_S_ : 0 < S_.numel
  bcast_S_S1000x2048 : S_.BroadcastsInDim S1000x2048 (![] : Fin 0 → Fin S1000x2048.rank)
  transposes_S1000x2048_S2048x1000_1_0 : S1000x2048.Transposes [1, 0] S2048x1000
  bitsLt_bf16_f32 : FTy.bits .bf16 < FTy.bits .f32
  reducesTo_S1000x2048_S1000_d1 : S1000x2048.ReducesTo [1] S1000
  bcast_S1000_S1000x1_0 : S1000.BroadcastsInDim S1000x1 (![0] : Fin 1 → Fin S1000x1.rank)
  transposes_S1000x1_S1x1000_1_0 : S1000x1.Transposes [1, 0] S1x1000
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1000_S2048x1000_0_0 : ∀ a, (![0, 0] : Fin 2 → Nat) a + S2048x1000.size a ≤ S2048x1000.size a
  h_S2048x1000 : 0 < S2048x1000.numel
  shapeCasts_S2048x1000_S2048x1000 : S2048x1000.ShapeCasts S2048x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  reduces_S1024x2048_S1024 : S1024x2048.Reduces [1] S1024
  shapeCasts_S1024_S1024x1 : S1024.ShapeCasts S1024x1
  broadcasts_S1024x1_S1024x1000 : S1024x1.Broadcasts S1024x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x2048_S2048x1000_S1024x1000_1_0_0_1_n_n_wf : DotDims.WF S1024x2048 S2048x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1000.size a ≤ S2048x1000.size a
  hwx0_1 : ∀ i : grid0.Coords, EltTy.bits .bf16 = 32 ∨ (Rect.block (s := S2048x1000) S2048x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S8192x1000.size a
  hwx0_3 : ∀ i : grid0.Coords, EltTy.bits .f32 = 32 ∨ (Rect.block (s := S8192x1000) S1024x1000.size (cc0_transform_3 i) (hinb0_3 i)).WholeWords (EltTy.packing .f32)

variable [Facts₀]

def dot_S1024x2048_S2048x1000_S1024x1000_1_0_0_1_n_n : DotDims S1024x2048 S2048x1000 S1024x1000 where
  lhsContracting := [1]
  rhsContracting := [0]
  lhsNonContracting := [0]
  rhsNonContracting := [1]
  lhsBatch := []
  rhsBatch := []
  wf := dot_S1024x2048_S2048x1000_S1024x1000_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048x1x1 : Shape := ⟨4, ![8192, 2048, 1, 1]⟩
abbrev S1000x5x2048x1x1 : Shape := ⟨5, ![1000, 5, 2048, 1, 1]⟩
abbrev S8192x2048 : Shape := ⟨2, ![8192, 2048]⟩
abbrev S1000x5x2048 : Shape := ⟨3, ![1000, 5, 2048]⟩
abbrev S_ : Shape := ⟨0, ![]⟩
abbrev S1000x2048 : Shape := ⟨2, ![1000, 2048]⟩
abbrev S8192 : Shape := ⟨1, ![8192]⟩
abbrev S8192x1 : Shape := ⟨2, ![8192, 1]⟩
abbrev S1000 : Shape := ⟨1, ![1000]⟩
abbrev S8192x1000 : Shape := ⟨2, ![8192, 1000]⟩
abbrev S1x1000 : Shape := ⟨2, ![1, 1000]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048x1x1, .f32⟩
  | .hbm, ⟨1, _⟩ => ⟨S1000x5x2048x1x1, .f32⟩
  | .hbm, ⟨2, _⟩ => ⟨S8192x2048, .f32⟩
  | .hbm, ⟨3, _⟩ => ⟨S1000x5x2048, .f32⟩
  | .hbm, ⟨4, _⟩ => ⟨S_, .f32⟩
  | .hbm, ⟨5, _⟩ => ⟨S1000x2048, .f32⟩
  | .hbm, ⟨6, _⟩ => ⟨S_, .f32⟩
  | .hbm, ⟨7, _⟩ => ⟨S1000x2048, .f32⟩
  | .hbm, ⟨8, _⟩ => ⟨S1000x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S1000x2048, .f32⟩
  | .hbm, ⟨14, _⟩ => ⟨S_, .f32⟩
  | .hbm, ⟨15, _⟩ => ⟨S1000, .f32⟩
  | .hbm, ⟨16, _⟩ => ⟨S8192x1000, .f32⟩
  | .hbm, ⟨17, _⟩ => ⟨S_, .f32⟩
  | .hbm, ⟨18, _⟩ => ⟨S8192x1000, .f32⟩
  | .hbm, ⟨19, _⟩ => ⟨S8192x1000, .f32⟩
  | .hbm, ⟨20, _⟩ => ⟨S8192x1000, .f32⟩
  | .hbm, ⟨21, _⟩ => ⟨S8192x1000, .f32⟩
  | .hbm, ⟨22, _⟩ => ⟨S1x1000, .f32⟩
  | .hbm, ⟨23, _⟩ => ⟨S8192x1000, .f32⟩
  | .hbm, ⟨24, _⟩ => ⟨S8192x1000, .f32⟩
  | .hbm, ⟨25, _⟩ => ⟨S8192x1000, .f32⟩
  | _, _ => ⟨S8192x2048x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  shapeCasts_S8192x2048x1x1_S8192x2048 : S8192x2048x1x1.ShapeCasts S8192x2048
  shapeCasts_S1000x5x2048x1x1_S1000x5x2048 : S1000x5x2048x1x1.ShapeCasts S1000x5x2048
  reducesTo_S1000x5x2048_S1000x2048_d1 : S1000x5x2048.ReducesTo [1] S1000x2048
  h_S_ : 0 < S_.numel
  bcast_S_S1000x2048 : S_.BroadcastsInDim S1000x2048 (![] : Fin 0 → Fin S1000x2048.rank)
  reducesTo_S8192x2048_S8192_d1 : S8192x2048.ReducesTo [1] S8192
  bcast_S8192_S8192x1_0 : S8192.BroadcastsInDim S8192x1 (![0] : Fin 1 → Fin S8192x1.rank)
  reducesTo_S1000x2048_S1000_d1 : S1000x2048.ReducesTo [1] S1000
  bcast_S_S8192x1000 : S_.BroadcastsInDim S8192x1000 (![] : Fin 0 → Fin S8192x1000.rank)
  bcast_S8192x1_S8192x1000_0_1 : S8192x1.BroadcastsInDim S8192x1000 (![0, 1] : Fin 2 → Fin S8192x1000.rank)
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  dot_S8192x2048_S1000x2048_S8192x1000_1_1_0_0_n_n_wf : DotDims.WF S8192x2048 S1000x2048 S8192x1000 [1] [1] [0] [0] [] []

variable [Facts₀]

def dot_S8192x2048_S1000x2048_S8192x1000_1_1_0_0_n_n : DotDims S8192x2048 S1000x2048 S8192x1000 where
  lhsContracting := [1]
  rhsContracting := [1]
  lhsNonContracting := [0]
  rhsNonContracting := [0]
  lhsBatch := []
  rhsBatch := []
  wf := dot_S8192x2048_S1000x2048_S8192x1000_1_1_0_0_n_n_wf

class Facts : Prop extends Facts₀ where

variable [Facts]
-- ==== Proof.BodyValue.lean ====
/-
  The kernel body's arithmetic at one element of its output block.

  At a grid point the body holds a block `x` of 1024 query rows (`[1024, 2048]`), the whole transposed
  prototype table `w` (`[2048, 1000]`) and the row `e` of squared prototype norms (`[1, 1000]`). Element
  `(r, n)` of what it stores is
      0 - ( (Σ_k x[r,k]·x[r,k]  -  2 · Σ_k x[r,k]·w[k,n])  +  e[0,n] ),
  where the first sum is a lane reduction of the squares, kept as a column and broadcast along the row, the
  second is the matrix product into a zero accumulator (the change of float format in front of it is the
  identity on the extended reals), and the last is the one row broadcast over all 1024. On the extended reals
  `0 - y = -y`.
-/
import proofs.«148914_j31937376813213_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The row sum of squares, kept as a column and broadcast along the row -/

/-- A `[1024]` vector cast to a `[1024, 1]` column reads, at `(r, 0)`, the vector at `r`. -/
theorem column_apply (v : FVec Ideal S1024 .f32) (r : Fin 1024) (z : Fin 1) :
    shapeCast S1024x1 v shapeCasts_S1024_S1024x1 (ix2 r z) = v (ix1 r) :=
  shapeCast_apply v shapeCasts_S1024_S1024x1 (ix2 r z) (ix1 r) (by
    rw [Shape.rowMajor_val_one, Shape.rowMajor_val_two]
    show r.val = r.val * 1 + z.val
    have := z.isLt; omega)

/-- A `[1024, 1]` column broadcast to `[1024, 1000]` reads, at `(r, n)`, the column at `(r, 0)`. -/
theorem alongRow_apply (v : FVec Ideal S1024x1 .f32) (r : Fin 1024) (n : Fin 1000) :
    broadcastTo S1024x1000 v broadcasts_S1024x1_S1024x1000 (ix2 r n) = v (ix2 r (0 : Fin 1)) :=
  broadcastTo_apply v broadcasts_S1024x1_S1024x1000 (ix2 r n) (ix2 r (0 : Fin 1)) fun a => match a with
    | ⟨0, _⟩ => by show r.val = if (1024 : Nat) = 1 then 0 else r.val; rw [if_neg (by decide)]
    | ⟨1, _⟩ => by show 0 = if (1 : Nat) = 1 then 0 else n.val; rw [if_pos rfl]

/-- The lane reduction of a `[1024, 2048]` block along its second axis is, at row `r`, the sum over the
    2048 lanes. -/
theorem laneSum_apply (v : FVec Ideal S1024x2048 .f32) (hφ : FKind.Formats .f32)
    (hacc : (0x00000000#32 : BitVec 32) = FKind.add.neutral .f32 hφ) (r : Fin 1024) :
    multiReduction .add [1] S1024 v 0x00000000#32 reduces_S1024x2048_S1024 hφ hacc (ix1 r)
      = ∑ k : Fin 2048, v (ix2 r k) := by
  refine (Ideal.multiReduction_add_single v 0x00000000#32 reduces_S1024x2048_S1024 hφ hacc (ix1 r)).trans ?_
  refine Finset.sum_congr rfl fun k _ => congrArg v (funext fun a => Fin.ext ?_)
  match a with
  | ⟨0, _⟩ => rfl
  | ⟨1, _⟩ => rfl

/-! ## The matrix product into a zero accumulator -/

theorem lhsAxis0 (i : S1024x1000.Idx) (q : dot_S1024x2048_S2048x1000_S1024x1000_1_0_0_1_n_n.contr.Idx) :
    (dot_S1024x2048_S2048x1000_S1024x1000_1_0_0_1_n_n.lhsIdx i q 0).val = (i 0).val := by
  unfold DotDims.lhsIdx
  rw [dif_neg (show ¬(0 : Fin S1024x2048.rank) ∈ dot_S1024x2048_S2048x1000_S1024x1000_1_0_0_1_n_n.lhsBatch by decide), dif_pos (show (0 : Fin S1024x2048.rank) ∈ dot_S1024x2048_S2048x1000_S1024x1000_1_0_0_1_n_n.lhsNonContracting by decide)]
  rfl
theorem lhsAxis1 (i : S1024x1000.Idx) (q : dot_S1024x2048_S2048x1000_S1024x1000_1_0_0_1_n_n.contr.Idx) :
    (dot_S1024x2048_S2048x1000_S1024x1000_1_0_0_1_n_n.lhsIdx i q 1).val = (q ⟨0, by decide⟩).val :=
  dot_S1024x2048_S2048x1000_S1024x1000_1_0_0_1_n_n.lhsIdx_val_of_single rfl i q
theorem rhsAxis0 (i : S1024x1000.Idx) (q : dot_S1024x2048_S2048x1000_S1024x1000_1_0_0_1_n_n.contr.Idx) :
    (dot_S1024x2048_S2048x1000_S1024x1000_1_0_0_1_n_n.rhsIdx i q 0).val = (q ⟨0, by decide⟩).val :=
  dot_S1024x2048_S2048x1000_S1024x1000_1_0_0_1_n_n.rhsIdx_val_of_single rfl i q
theorem rhsAxis1 (i : S1024x1000.Idx) (q : dot_S1024x2048_S2048x1000_S1024x1000_1_0_0_1_n_n.contr.Idx) :
    (dot_S1024x2048_S2048x1000_S1024x1000_1_0_0_1_n_n.rhsIdx i q 1).val = (i 1).val := by
  unfold DotDims.rhsIdx
  rw [dif_neg (show ¬(1 : Fin S2048x1000.rank) ∈ dot_S1024x2048_S2048x1000_S1024x1000_1_0_0_1_n_n.rhsBatch by decide), dif_pos (show (1 : Fin S2048x1000.rank) ∈ dot_S1024x2048_S2048x1000_S1024x1000_1_0_0_1_n_n.rhsNonContracting by decide)]
  rfl

/-- The product of a `[1024, 2048]` block with the `[2048, 1000]` table, accumulated into zero, is at
    `(r, n)` the sum over the 2048 contracted positions of `a[r,k] · w[k,n]`. -/
theorem product_apply (a : FVec Ideal S1024x2048 .bf16) (w : FVec Ideal S2048x1000 .bf16) (r : Fin 1024) (n : Fin 1000) :
    matmul dot_S1024x2048_S2048x1000_S1024x1000_1_0_0_1_n_n none a w (constant S1024x1000 .f32 0x00000000#32) (ix2 r n)
      = ∑ k : Fin 2048, a (ix2 r k) * w (ix2 k n) := by
  simp only [matmul]
  rw [Ideal.matmul_constant_zero_apply, ← Equiv.sum_comp (ValueIdx.contrEquiv1 dot_S1024x2048_S2048x1000_S1024x1000_1_0_0_1_n_n 2048 rfl rfl).symm]
  refine Finset.sum_congr rfl fun k _ => ?_
  have hk := ValueIdx.contrEquiv1_symm_val dot_S1024x2048_S2048x1000_S1024x1000_1_0_0_1_n_n 2048 rfl rfl k
  have el : dot_S1024x2048_S2048x1000_S1024x1000_1_0_0_1_n_n.lhsIdx (ix2 r n) ((ValueIdx.contrEquiv1 dot_S1024x2048_S2048x1000_S1024x1000_1_0_0_1_n_n 2048 rfl rfl).symm k) = ix2 r k := funext fun ax => Fin.ext (by
    match ax with
    | ⟨0, _⟩ => exact lhsAxis0 _ _
    | ⟨1, _⟩ => exact (lhsAxis1 _ _).trans hk)
  have er : dot_S1024x2048_S2048x1000_S1024x1000_1_0_0_1_n_n.rhsIdx (ix2 r n) ((ValueIdx.contrEquiv1 dot_S1024x2048_S2048x1000_S1024x1000_1_0_0_1_n_n 2048 rfl rfl).symm k) = ix2 k n := funext fun ax => Fin.ext (by
    match ax with
    | ⟨0, _⟩ => exact (rhsAxis0 _ _).trans hk
    | ⟨1, _⟩ => exact rhsAxis1 _ _)
  rw [el, er]

/-! ## The stored value at `(r, n)` -/

/-- The shape of the stored expression on the extended reals: with a zero in front, `0 - y = -y`. -/
theorem zero_sub_expansion (z a c e a' c' e' two : EReal) (hz : z = 0) (ha : a = a') (hc : c = c') (he : e = e') :
    z - ((a - two * c) + e) = -((a' - two * c') + e') := by
  subst hz ha hc he; exact zero_sub _

/-- Element `(r, n)` of the block the body stores, from the three blocks it loads. -/
theorem stored_apply (x : Vec Ideal S1024x2048 .f32) (w : Vec Ideal S2048x1000 .bf16) (e : Vec Ideal S1x1000 .f32)
    (r : Fin 1024) (n : Fin 1000) :
    k0_pay1 (F := Ideal) x w e (ix2 r n)
      = -(((∑ k : Fin 2048, x (ix2 r k) * x (ix2 r k))
            - Ideal.ofBits .f32 0x40000000#32 * (∑ k : Fin 2048, x (ix2 r k) * w (ix2 k n)))
          + e (ix2 (0 : Fin 1) n)) := by
  unfold k0_pay1
  simp only [shapeCast_self]
  show Ideal.ofBits .f32 0x00000000#32
      - ((broadcastTo S1024x1000 (shapeCast S1024x1 (multiReduction .add [1] S1024 (mulf x x) 0x00000000#32 reduces_S1024x2048_S1024 (.inl rfl) rfl) shapeCasts_S1024_S1024x1) broadcasts_S1024x1_S1024x1000 (ix2 r n)
          - Ideal.ofBits .f32 0x40000000#32 * matmul dot_S1024x2048_S2048x1000_S1024x1000_1_0_0_1_n_n none (truncf .bf16 x bitsLt_bf16_f32) w (constant S1024x1000 .f32 0x00000000#32) (ix2 r n))
        + broadcastTo S1024x1000 e broadcasts_S1x1000_S1024x1000 (ix2 r n)) = _
  exact zero_sub_expansion _ _ _ _ _ _ _ _ Ideal.ofBits_zero_f32
    ((alongRow_apply _ r n).trans ((column_apply _ r 0).trans (laneSum_apply (mulf x x) _ _ r)))
    (product_apply (truncf .bf16 x bitsLt_bf16_f32) w r n)
    (broadcastTo_1b_ab_apply e broadcasts_S1x1000_S1024x1000 r n)

end Cert.KernelIdeal.Body

end
-- ==== Proof.HostArrays.lean ====
/-
  What the three input windows' arrays hold when the region is entered.

  The program's host operations before the region turn the two arguments into
    • the queries `q = x1` laid out as `[8192, 2048]`;
    • the class prototypes `p[n,d] = (0 + Σ_s x2[n,s,d]) / 5`, a `[1000, 2048]` table, handed to the kernel
      transposed and in a narrower float format (the identity on the extended reals): `w[d,n] = p[n,d]`;
    • the prototypes' squared norms `pp[n] = 0 + Σ_d p[n,d]·p[n,d]`, handed to the kernel as the row
      `e[0,n] = pp[n]`.
  The prototype table and its squared norms are carried as opaque functions of the second argument: the
  reference computes them by the same host operations, so they are never opened.
-/
import proofs.«148914_j31937376813213_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostArrays

open Cert.KernelIdeal Cert.KernelIdeal.Gen Idealize.ShloMosaic Idealize.ShloMosaic.TcCoe Idealize.SL.Sem
open Idealize.ShloMosaic.ValueIdx Idealize.ShloMosaic.StableHlo

/-- The queries: the first argument laid out as `[8192, 2048]`. -/
def queries (x1 : Vec Ideal S8192x2048x1x1 .f32) : FVec Ideal S8192x2048 .f32 :=
  shapeCast S8192x2048 x1 shapeCasts_S8192x2048x1x1_S8192x2048

/-- The class prototypes: the mean over the five shots, `(0 + Σ_s x2[n,s,d]) / 5`. -/
def protos (x2 : Vec Ideal S1000x5x2048x1x1 .f32) : FVec Ideal S1000x2048 .f32 :=
  Host.divf (F := Ideal)
    (Host.reduceAdd (F := Ideal) (shapeCast S1000x5x2048 x2 shapeCasts_S1000x5x2048x1x1_S1000x5x2048)
      (constant (F := Ideal) S_ .f32 0x00000000#32) reducesTo_S1000x5x2048_S1000x2048_d1 h_S_)
    (broadcastInDim S1000x2048 ![] bcast_S_S1000x2048 (constant (F := Ideal) S_ .f32 0x40A00000#32))

/-- The prototypes' squared norms, `0 + Σ_d p[n,d]·p[n,d]`. -/
def protoSq (x2 : Vec Ideal S1000x5x2048x1x1 .f32) : FVec Ideal S1000 .f32 :=
  Host.reduceAdd (F := Ideal) (mulf (protos x2) (protos x2)) (constant (F := Ideal) S_ .f32 0x00000000#32)
    reducesTo_S1000x2048_S1000_d1 h_S_

variable (m : (ℓ : Loc nD τ sig) → Buf (Elt Ideal) ℓ)

/-- Window 0's array is the queries. -/
theorem queries_eq (c : Dev nD) :
    (V m c main_v0 : S8192x2048.Idx → EReal) = queries (m ((c : Thread nD τ).loc main_arg0)) := by
  dsimp only [Gen.V, Gen.hostOps0]; after_results; rfl

/-- Window 1's array is the prototype table transposed (and narrowed, which changes nothing here). -/
theorem table_eq (c : Dev nD) :
    (V m c main_v6 : S2048x1000.Idx → EReal)
      = truncf .bf16 (transpose S2048x1000 [1, 0] (protos (m ((c : Thread nD τ).loc main_arg1))) transposes_S1000x2048_S2048x1000_1_0) bitsLt_bf16_f32 := by
  dsimp only [Gen.V, Gen.hostOps0]; after_results; rfl

/-- Window 2's array is the squared norms as one row. -/
theorem normsRow_eq (c : Dev nD) :
    (V m c main_v10 : S1x1000.Idx → EReal)
      = transpose S1x1000 [1, 0] (broadcastInDim S1000x1 ![0] bcast_S1000_S1000x1_0 (protoSq (m ((c : Thread nD τ).loc main_arg1)))) transposes_S1000x1_S1x1000_1_0 := by
  dsimp only [Gen.V, Gen.hostOps0]; after_results; rfl

/-- The table at `(d, n)` is prototype `n`'s feature `d`. -/
theorem table_apply (c : Dev nD) (d : Fin 2048) (n : Fin 1000) :
    (V m c main_v6 : S2048x1000.Idx → EReal) (ix2 d n) = protos (m ((c : Thread nD τ).loc main_arg1)) (ix2 n d) := by
  rw [table_eq]
  exact transpose_ix2_apply (protos (m ((c : Thread nD τ).loc main_arg1))) transposes_S1000x2048_S2048x1000_1_0 d n

/-- A `[1000]` vector set along a new trailing unit axis reads, at `(n, 0)`, the vector at `n`. -/
theorem asColumn_apply (v : FVec Ideal S1000 .f32) (n : Fin 1000) (z : Fin 1) :
    broadcastInDim S1000x1 ![0] bcast_S1000_S1000x1_0 v (ix2 n z) = v (ix1 n) :=
  broadcastInDim_apply _ bcast_S1000_S1000x1_0 v (ix2 n z) (ix1 n) fun a => match a with
    | ⟨0, _⟩ => by show n.val = if (1000 : Nat) = 1 then 0 else n.val; rw [if_neg (by decide)]

/-- The row at `(0, n)` is prototype `n`'s squared norm. -/
theorem normsRow_apply (c : Dev nD) (n : Fin 1000) :
    (V m c main_v10 : S1x1000.Idx → EReal) (ix2 (0 : Fin 1) n) = protoSq (m ((c : Thread nD τ).loc main_arg1)) (ix1 n) := by
  rw [normsRow_eq]
  refine (transpose_ix2_apply _ transposes_S1000x1_S1x1000_1_0 (0 : Fin 1) n).trans ?_
  exact asColumn_apply _ n 0

end Cert.KernelIdeal.HostArrays

end
-- ==== Proof.Spec.lean ====
/-
  The function both programs compute, stated once over literal shapes and explicit coordinates.

  For queries `q : [8192, 2048]`, class prototypes `p : [1000, 2048]` and the prototypes' squared norms
  `pp : [1000]`, the score of query `b` against class `n` is the negated squared Euclidean distance in its
  expanded form
      -( (Σ_d q[b,d]·q[b,d]  -  2 · Σ_d q[b,d]·p[n,d])  +  pp[n] )
  on the extended reals, with the sums over the 2048 features. The factor `2` stays the f32 word both programs
  print for it; it is never evaluated. The association `(a - c) + e` and the order of each product's factors
  are the ones both programs print, so no law of the extended reals beyond `0 + x = x` and `0 - x = -x` is
  needed to meet either side, and finiteness of the inputs plays no part.
-/
import Idealize.ShloMosaic.PureOps.Ideal
import Idealize.ShloMosaic.Lib.ValueIdx

noncomputable section

namespace Cert.Score

open Idealize.ShloMosaic Idealize.ShloMosaic.ValueIdx

/-- The score of query row `b` against class `n`: minus the expanded squared distance. -/
def negSqDist (q : (⟨2, ![8192, 2048]⟩ : Shape).Idx → EReal) (p : (⟨2, ![1000, 2048]⟩ : Shape).Idx → EReal)
    (pp : (⟨1, ![1000]⟩ : Shape).Idx → EReal) (b : Fin 8192) (n : Fin 1000) : EReal :=
  -(((∑ k : Fin 2048, q (ix2 b k) * q (ix2 b k))
      - Ideal.ofBits .f32 0x40000000#32 * (∑ k : Fin 2048, q (ix2 b k) * p (ix2 n k)))
    + pp (ix1 n))

/-- The whole `[8192, 1000]` score array, index by index. -/
def scores (q : (⟨2, ![8192, 2048]⟩ : Shape).Idx → EReal) (p : (⟨2, ![1000, 2048]⟩ : Shape).Idx → EReal)
    (pp : (⟨1, ![1000]⟩ : Shape).Idx → EReal) : (⟨2, ![8192, 1000]⟩ : Shape).Idx → EReal :=
  fun i => negSqDist q p pp (i 0) (i 1)

theorem scores_ix2 (q : (⟨2, ![8192, 2048]⟩ : Shape).Idx → EReal) (p : (⟨2, ![1000, 2048]⟩ : Shape).Idx → EReal)
    (pp : (⟨1, ![1000]⟩ : Shape).Idx → EReal) (b : Fin 8192) (n : Fin 1000) :
    scores q p pp (ix2 b n) = negSqDist q p pp b n := rfl

end Cert.Score

end
-- ==== Proof.KernelValue.lean ====
/-
  From the kernel's eight row blocks to its whole result array.

  The grid has eight points. Point `t` sees query rows `1024·t … 1024·t + 1023` (the first window moves with
  the point), the whole transposed prototype table and the whole row of squared norms (those two windows
  never move), and writes back rows `1024·t … 1024·t + 1023` of the `[8192, 1000]` result. By the body's
  arithmetic, row `r` and column `n` of the block point `t` writes is the score of query `1024·t + r` against
  class `n`; the eight blocks tile the result (row `i` lies in block `i / 1024`), so after the run the result
  array is the score function of the queries, the prototype table and its squared norms, index by index.
-/
import proofs.«148914_j31937376813213_1_alg».proof.Proof.Gen.KernelIdeal.Value
import proofs.«148914_j31937376813213_1_alg».proof.Proof.BodyValue
import proofs.«148914_j31937376813213_1_alg».proof.Proof.HostArrays
import proofs.«148914_j31937376813213_1_alg».proof.Proof.Spec

noncomputable section

namespace Cert.KernelIdeal.Blocks

open Cert.KernelIdeal Cert.KernelIdeal.Gen Cert.KernelIdeal.Value Cert.KernelIdeal.HostArrays
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The windows' block indices at each of the eight points: the queries' and the result's blocks move down
    the rows with the point, the table's and the norms' stay at the origin. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result array: the score function of the queries, the prototype table and its squared norms. -/
abbrev result (c : Dev nD) : Buf (Elt Ideal) ((c : Thread nD τ).loc main_v11) :=
  Cert.Score.scores (queries (m ((c : Thread nD τ).loc main_arg0))) (protos (m ((c : Thread nD τ).loc main_arg1)))
    (protoSq (m ((c : Thread nD τ).loc main_arg1)))

/-! ## The three input blocks at a point -/

/-- Row `r` of the query block at point `t` is query `1024·t + r`. -/
theorem queryBlock_apply (c : Dev nD) (t : Fin cfg0.N) (r : Fin 1024) (k : Fin 2048) (b : Fin 8192)
    (hb : b.val = t.val * 1024 + r.val) :
    (iblk m c 0 t : Vec Ideal S1024x2048 .f32) (ix2 r k) = queries (m ((c : Thread nD τ).loc main_arg0)) (ix2 b k) := by
  obtain ⟨e0, e1, -⟩ := blockIndex t
  unfold iblk
  rw [View.read_apply]
  show V m c main_v0 _ = _
  rw [queries_eq]
  refine congrArg (queries (m ((c : Thread nD τ).loc main_arg0))) (funext fun a => Fin.ext ?_)
  match a with
  | ⟨0, _⟩ => show win0_0.index t (0 : Fin 2) * 1024 + 1 * r.val = b.val; omega
  | ⟨1, _⟩ => show win0_0.index t (1 : Fin 2) * 2048 + 1 * k.val = k.val; omega

/-- The table block at every point is the whole transposed table: at `(k, n)`, prototype `n`'s feature `k`. -/
theorem tableBlock_apply (c : Dev nD) (t : Fin cfg0.N) (k : Fin 2048) (n : Fin 1000) :
    (iblk m c 1 t : Vec Ideal S2048x1000 .bf16) (ix2 k n) = protos (m ((c : Thread nD τ).loc main_arg1)) (ix2 n k) := by
  obtain ⟨-, -, e2, e3, -⟩ := blockIndex t
  unfold iblk
  rw [View.read_apply]
  show (V m c main_v6 : S2048x1000.Idx → EReal) _ = _
  refine Eq.trans (congrArg (V m c main_v6 : S2048x1000.Idx → EReal) (funext fun a => Fin.ext ?_)) (table_apply m c k n)
  match a with
  | ⟨0, _⟩ => show win0_1.index t (0 : Fin 2) * 2048 + 1 * k.val = k.val; omega
  | ⟨1, _⟩ => show win0_1.index t (1 : Fin 2) * 1000 + 1 * n.val = n.val; omega

/-- The norms block at every point is the whole row: at `(0, n)`, prototype `n`'s squared norm. -/
theorem normsBlock_apply (c : Dev nD) (t : Fin cfg0.N) (n : Fin 1000) :
    (iblk m c 2 t : Vec Ideal S1x1000 .f32) (ix2 (0 : Fin 1) n) = protoSq (m ((c : Thread nD τ).loc main_arg1)) (ix1 n) := by
  obtain ⟨-, -, -, -, e4, e5, -⟩ := blockIndex t
  unfold iblk
  rw [View.read_apply]
  show (V m c main_v10 : S1x1000.Idx → EReal) _ = _
  refine Eq.trans (congrArg (V m c main_v10 : S1x1000.Idx → EReal) (funext fun a => Fin.ext ?_)) (normsRow_apply m c n)
  match a with
  | ⟨0, _⟩ => show win0_2.index t (0 : Fin 2) * 1 + 1 * 0 = 0; omega
  | ⟨1, _⟩ => show win0_2.index t (1 : Fin 2) * 1000 + 1 * n.val = n.val; omega

/-! ## What a point writes back -/

/-- The body's stored element over blocks that are rows of `q`, the transposed `p` and the row of `pp`
    is the score of query `b` against class `n`. -/
theorem stored_eq_score (x : Vec Ideal S1024x2048 .f32) (w : Vec Ideal S2048x1000 .bf16) (e : Vec Ideal S1x1000 .f32)
    (q : S8192x2048.Idx → EReal) (p : S1000x2048.Idx → EReal) (pp : S1000.Idx → EReal)
    (b : Fin 8192) (r : Fin 1024) (n : Fin 1000)
    (hx : ∀ k : Fin 2048, x (ix2 r k) = q (ix2 b k))
    (hw : ∀ k : Fin 2048, w (ix2 k n) = p (ix2 n k))
    (he : e (ix2 (0 : Fin 1) n) = pp (ix1 n)) :
    k0_pay1 (F := Ideal) x w e (ix2 r n) = Cert.Score.negSqDist q p pp b n := by
  rw [Body.stored_apply]
  unfold Cert.Score.negSqDist
  have hsq : (∑ k : Fin 2048, x (ix2 r k) * x (ix2 r k)) = ∑ k : Fin 2048, q (ix2 b k) * q (ix2 b k) :=
    Finset.sum_congr rfl fun k _ => by rw [hx k]
  have hcross : (∑ k : Fin 2048, x (ix2 r k) * w (ix2 k n)) = ∑ k : Fin 2048, q (ix2 b k) * p (ix2 n k) :=
    Finset.sum_congr rfl fun k _ => by rw [hx k, hw k]
  rw [hsq, hcross, he]

/-- Element `(r, n)` of the result block's position in the array: row `1024·t + r`, column `n`. -/
theorem resultBlock_emb (t : Fin cfg0.N) (r : Fin 1024) (n : Fin 1000) (b : Fin 8192) (hb : b.val = t.val * 1024 + r.val) :
    ((cfg0.win 3).blk t).view.emb (ix2 r n) = (ix2 b n : S8192x1000.Idx) := by
  obtain ⟨-, -, -, -, -, -, e6, e7⟩ := blockIndex t
  funext a
  apply Fin.ext
  match a with
  | ⟨0, _⟩ => show win0_3.index t (0 : Fin 2) * 1024 + 1 * r.val = b.val; omega
  | ⟨1, _⟩ => show win0_3.index t (1 : Fin 2) * 1000 + 1 * n.val = n.val; omega

/-- What point `t` writes back is block `t` of the score array. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zeros]
  simp only [View.ld_unit_zero (S := S1024x2048) zeros, View.ld_unit_zero (S := S2048x1000) zeros, View.ld_unit_zero (S := S1x1000) zeros]
  funext j
  obtain ⟨r, n, rfl⟩ : ∃ (r : Fin 1024) (n : Fin 1000), (j : S1024x1000.Idx) = ix2 r n := ⟨j 0, j 1, eq_ix2 j⟩
  have hN : cfg0.N = 8 := N_0
  have ht : t.val < 8 := hN ▸ t.isLt
  obtain ⟨b, hb⟩ : ∃ b : Fin 8192, b.val = t.val * 1024 + r.val := ⟨⟨t.val * 1024 + r.val, by have := r.isLt; omega⟩, rfl⟩
  rw [View.read_apply, resultBlock_emb t r n b hb]
  show k0_pay1 (F := Ideal) (iblk m c 0 t) (iblk m c 1 t) (iblk m c 2 t) (ix2 r n) = Cert.Score.negSqDist _ _ _ b n
  exact stored_eq_score (iblk m c 0 t) (iblk m c 1 t) (iblk m c 2 t) _ _ _ b r n
    (fun k => queryBlock_apply m c t r k b hb) (fun k => tableBlock_apply m c t k n) (normsBlock_apply m c t n)

/-! ## The eight blocks tile the result -/

/-- An index of the result lies in point `t`'s block iff each coordinate lies in the block's range. -/
theorem mem_block (t : Fin cfg0.N) (i : S8192x1000.Idx) :
    i ∈ ((cfg0.win 3).blk t).view.set ↔ ∀ a : Fin 2, win0_3.index t a * S1024x1000.size a ≤ (i a).val ∧ (i a).val < win0_3.index t a * S1024x1000.size a + S1024x1000.size a := by
  show i ∈ ((View.whole main_v11).slice (win0_3.rect t)).set ↔ _
  rw [View.set_slice_whole, Rect.mem_set_unit]
  exact Iff.rfl

/-- Every index of the result lies in the block of point `i₀ / 1024`, which writes back. -/
theorem covered (i : S8192x1000.Idx) :
    ∃ t : Fin cfg0.N, (cfg0.win 3).flush t = true ∧ i ∈ ((cfg0.win 3).blk t).view.set := by
  have hi0 : (i 0).val < 8192 := (i 0).isLt
  have hi1 : (i 1).val < 1000 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, e6, e7⟩ := blockIndex t
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1000 ≤ (i 1).val ∧ (i 1).val < win0_3.index t (1 : Fin 2) * 1000 + 1000; omega

/-- After the run the result array is the score array. -/
theorem final (c : Dev nD) : (dats m 0 c).arrAt 3 cfg0.N = result m c :=
  (dats m 0 c).arrAt_eq_of_cover 3 (result m c) (fun t _ => flushed_eq m c t) covered

/-- The kernel's run, read: the result array at the score function of the arguments, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.RefValue.lean ====
/-
  The reference's result is the score function.

  Read one operation at a time, element `(b, n)` of the reference's result is
      -( ((0 + Σ_k q[b,k]·q[b,k])  -  2 · Σ_k q[b,k]·p[n,k])  +  pp[n] ),
  with `q` its queries, `p` its prototype table and `pp` the table's squared norms: a host sum into a zero
  initial value, the host's contraction of the two feature axes, three broadcasts and a negation. Dropping
  the zero (`0 + x = x`) gives the score function of the specification. The prototype table and its squared
  norms are left as the stages they are: the kernel's program computes them by the same operations.
-/
import proofs.«148914_j31937376813213_1_alg».proof.Proof.Gen.ReferenceIdeal.Read
import proofs.«148914_j31937376813213_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- Row `b` of the queries, lane `k`: where the row sum of squares reads its operand. -/
theorem rowIdx (b : Fin 8192) (n : Fin 1000) (k : Fin 2048) :
    idx_main_v6 (idx_main_v7 (idx_main_v13 (ix2 b n))) k = ix2 b k :=
  funext fun a => Fin.ext (by match a with | ⟨0, _⟩ => rfl | ⟨1, _⟩ => rfl)

/-- The contraction reads the queries at `(b, k)` -/
theorem crossLeftIdx (b : Fin 8192) (n : Fin 1000) (k : Fin 2048) : lidx_main_v10 (ix2 b n) k = ix2 b k :=
  funext fun a => Fin.ext (by match a with | ⟨0, _⟩ => rfl | ⟨1, _⟩ => rfl)

/-- and the prototype table at `(n, k)`. -/
theorem crossRightIdx (b : Fin 8192) (n : Fin 1000) (k : Fin 2048) : ridx_main_v10 (ix2 b n) k = ix2 n k :=
  funext fun a => Fin.ext (by match a with | ⟨0, _⟩ => rfl | ⟨1, _⟩ => rfl)

/-- The squared norms are read at class `n`. -/
theorem normIdx (b : Fin 8192) (n : Fin 1000) : idx_main_v15 (idx_main_v16 (ix2 b n)) = ix1 n :=
  funext fun a => Fin.ext (by match a with | ⟨0, _⟩ => rfl)

/-- The reference's result array is the score function of its queries, its prototype table and the table's
    squared norms. -/
theorem result_eq (x0 : (⟨S8192x2048x1x1, .f32⟩ : BufTy).Contents (Elt Ideal)) (x1 : (⟨S1000x5x2048x1x1, .f32⟩ : BufTy).Contents (Elt Ideal)) :
    val_main_v18 (F := Ideal) x0 x1
      = Cert.Score.scores (val_main_v0 (F := Ideal) x0) (val_main_v4 (F := Ideal) x1) (val_main_v9 (F := Ideal) x1) := by
  funext i
  obtain ⟨b, n, rfl⟩ : ∃ (b : Fin 8192) (n : Fin 1000), i = ix2 b n := ⟨i 0, i 1, eq_ix2 i⟩
  rw [Cert.Score.scores_ix2]
  unfold Cert.Score.negSqDist
  rw [val_main_v18_apply, val_main_v17_apply, val_main_v14_apply, val_main_v13_apply, val_main_v7_apply,
    val_main_v6_apply, val_main_v12_apply, val_main_v11_apply, val_main_v10_apply, val_main_v16_apply,
    val_main_v15_apply]
  simp only [val_main_v5_apply, val_main_cst_1_apply, val_main_cst_3_apply, rowIdx, crossLeftIdx, crossRightIdx, normIdx,
    Ideal.hostNegf_def, Ideal.negf_def, Ideal.addf_def, Ideal.subf_def, Ideal.mulf_def, Ideal.ofBits_def,
    Ideal.ofBits_zero_f32, zero_add]

end Cert.ReferenceIdeal.RefValue

end
-- ==== Proof.lean ====
/-
  Negated squared Euclidean distances of 8192 queries to 1000 class prototypes, the prototypes being the means
  over five shots: a kernel that tiles the queries into eight blocks of 1024 rows and feeds the matrix unit the
  transposed prototype table, against the plain expansion `-(‖q‖² - 2·q·pᵀ + ‖p‖²)` with one contraction.

  On the extended reals both programs compute, at query `b` and class `n`,
      -( (Σ_d q[b,d]·q[b,d]  -  2 · Σ_d q[b,d]·p[n,d])  +  Σ_d p[n,d]·p[n,d] ),   p[n,d] = (Σ_s x2[n,s,d]) / 5.
  The prototype table and its squared norms come out of the same host operations in both programs, so they are
  carried as they stand and never opened; the kernel's transposed, narrowed copy of the table reads back as the
  table (`w[d,n] = p[n,d]`, the change of float format being the identity here); the kernel's lane sum and its
  matrix product into a zero accumulator are the reference's host sum and contraction; and the kernel's
  `0 - y` is the reference's `-y`. The factors of every product stand in the same order on both sides and the
  sums are associated alike, so nothing beyond `0 + x = x` and `0 - x = -x` is used and the finiteness of the
  inputs is never needed.

  Spec.lean states the score function; BodyValue.lean reads the kernel body's stored element; HostArrays.lean
  reads the three arrays the kernel's windows stage; KernelValue.lean goes from the eight row blocks to the whole
  result; RefValue.lean reads the reference. The three frames are the generated ones (the reference's is its run
  with the result dropped); the idealized kernel is the kernel's own text read on the extended reals, with no
  operation rewritten, so `preserves` asks nothing.
-/
import proofs.«148914_j31937376813213_1_alg».proof.Defs
import proofs.«148914_j31937376813213_1_alg».proof.Proof.Gen.Kernel
import proofs.«148914_j31937376813213_1_alg».proof.Proof.Gen.Kernel.Skeleton
import proofs.«148914_j31937376813213_1_alg».proof.Proof.Gen.Kernel.Launch
import proofs.«148914_j31937376813213_1_alg».proof.Proof.Gen.Kernel.Points
import proofs.«148914_j31937376813213_1_alg».proof.Proof.Gen.Kernel.Frame
import proofs.«148914_j31937376813213_1_alg».proof.Proof.Gen.KernelIdeal
import proofs.«148914_j31937376813213_1_alg».proof.Proof.Gen.KernelIdeal.Skeleton
import proofs.«148914_j31937376813213_1_alg».proof.Proof.Gen.KernelIdeal.Launch
import proofs.«148914_j31937376813213_1_alg».proof.Proof.Gen.KernelIdeal.Points
import proofs.«148914_j31937376813213_1_alg».proof.Proof.Gen.KernelIdeal.Frame
import proofs.«148914_j31937376813213_1_alg».proof.Proof.Gen.ReferenceIdeal
import proofs.«148914_j31937376813213_1_alg».proof.Proof.Gen.Pre_finite_inputs
import proofs.«148914_j31937376813213_1_alg».proof.Proof.Gen.KernelIdeal.Value
import proofs.«148914_j31937376813213_1_alg».proof.Proof.Gen.ReferenceIdeal.Run
import proofs.«148914_j31937376813213_1_alg».proof.Proof.Gen.ReferenceIdeal.Read
import proofs.«148914_j31937376813213_1_alg».proof.Proof.KernelValue
import proofs.«148914_j31937376813213_1_alg».proof.Proof.RefValue
import Idealize.ShloMosaic.Adequacy
import Idealize.ShloMosaic.Init

noncomputable section

namespace Cert.Proof

open Idealize.ShloMosaic Idealize.SL.Sem

/-- The two programs build the queries, the prototype table and the table's squared norms by the same host
    operations: the reference's three stages are the kernel program's three functions of the arguments. -/
theorem sharedStages (x1 : Vec Ideal Cert.KernelIdeal.S8192x2048x1x1 .f32) (x2 : Vec Ideal Cert.KernelIdeal.S1000x5x2048x1x1 .f32) :
    Cert.ReferenceIdeal.Read.val_main_v0 (F := Ideal) x1 = Cert.KernelIdeal.HostArrays.queries x1
    ∧ Cert.ReferenceIdeal.Read.val_main_v4 (F := Ideal) x2 = Cert.KernelIdeal.HostArrays.protos x2
    ∧ Cert.ReferenceIdeal.Read.val_main_v9 (F := Ideal) x2 = Cert.KernelIdeal.HostArrays.protoSq x2 :=
  ⟨rfl, rfl, rfl⟩

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to its idealization: nothing to preserve. -/
theorem preserves : Cert.preserves_Kernel_KernelIdeal := trivial

/-- Both runs end with the result array at the score function of the same queries, prototype table and
    squared norms. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]
  obtain ⟨hq, hp, hpp⟩ := sharedStages (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
  rw [hq, hp, hpp]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
